-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64x64 .f32) (main_arg11 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 76
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KHost.lean ====
/-
  The kernel program's host side, at any float instance.

  Between its three regions the program runs stretches of host operations. The first computes the in-degree of every
  node (a scatter-add of ones), its clamped reciprocal, the neighbour sums of the input features (a gather along the
  edge sources, a scatter-add along the edge targets) scaled by that reciprocal, and the first bias as a one-row
  matrix; the second and third compute the same neighbour means of the previous region's output, and the next bias
  row. These are operation for operation the reference's own stages, so each computed buffer is stated as the
  reference's stage function of the same inputs, the two sides compared without opening a gather or a scatter-add.
  A buffer no operation of a stretch writes, and that is not one of a region's arrays, keeps its contents: that is how
  the arguments and the degree reciprocal reach the later stretches and regions.
-/
import proofs.«135646_j24326694764904_1_alg».proof.Proof.KernelIdealFrame
import proofs.«135646_j24326694764904_1_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg) (c : Dev nD)

/-- No operation of the named stretch writes the buffer: every operation writes its own result buffer only, and that is
    another reference. -/
macro "not_written_by " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## A stretch leaves alone what it does not write -/

theorem kept0 (r : Ref sig .tc) (h : ∀ op ∈ (hostOps0 : List (HloOp τ sig (Elt F))), Proc.devRef .tc r ∉ op.writes) :
    W1 m ρ c (Proc.devRef .tc r) = m ((c : Thread nD τ).loc r) :=
  StableHlo.after_of_forall_not_mem (b := Proc.devRef .tc r) hostOps0 (W0 m ρ c) h

theorem kept1 (r : Ref sig .tc) (h : ∀ op ∈ (hostOps1 : List (HloOp τ sig (Elt F))), Proc.devRef .tc r ∉ op.writes) :
    W3 m ρ c (Proc.devRef .tc r) = W2 m ρ c (Proc.devRef .tc r) :=
  StableHlo.after_of_forall_not_mem (b := Proc.devRef .tc r) hostOps1 (W2 m ρ c) h

theorem kept2 (r : Ref sig .tc) (h : ∀ op ∈ (hostOps2 : List (HloOp τ sig (Elt F))), Proc.devRef .tc r ∉ op.writes) :
    W5 m ρ c (Proc.devRef .tc r) = W4 m ρ c (Proc.devRef .tc r) :=
  StableHlo.after_of_forall_not_mem (b := Proc.devRef .tc r) hostOps2 (W4 m ρ c) h

/-! ## The first stretch -/

/-- The reciprocal of the clamped in-degree, as a column. -/
theorem deg_entry : W1 m ρ c (Proc.devRef .tc main_v8) = Cert.ReferenceIdeal.Read.val_main_v8 (F := F) (m ((c : Thread nD τ).loc main_arg2)) := by
  show StableHlo.after hostOps0 (W0 m ρ c) (Proc.devRef .tc main_v8) = _
  after_results_simp
  rfl

/-- The neighbour means of the input features. -/
theorem means0 : W1 m ρ c (Proc.devRef .tc main_v20)
    = Cert.ReferenceIdeal.Read.val_main_v20 (F := F) (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl

/-- The first bias as a one-row matrix: its entry `q` is the flat bias at `q`. -/
theorem bias0 (q : Fin 64) : V1 m ρ c main_v21 (ix2 (0 : Fin 1) q) = (m ((c : Thread nD τ).loc main_arg5)) (ix1 q) := by
  have e : StableHlo.after hostOps0 (W0 m ρ c) (Proc.devRef .tc main_v21) = shapeCast S1x64 (m ((c : Thread nD τ).loc main_arg5)) shapeCasts_S64_S1x64 := by
    after_results_simp
    rfl
  show StableHlo.after hostOps0 (W0 m ρ c) (Proc.devRef .tc main_v21) (ix2 (0 : Fin 1) q) = _
  rw [e]
  exact shapeCast_a_1a_apply _ _ 0 q

theorem W1_arg0 : W1 m ρ c (Proc.devRef .tc main_arg0) = m ((c : Thread nD τ).loc main_arg0) := kept0 m ρ c main_arg0 (by not_written_by hostOps0)
theorem W1_arg3 : W1 m ρ c (Proc.devRef .tc main_arg3) = m ((c : Thread nD τ).loc main_arg3) := kept0 m ρ c main_arg3 (by not_written_by hostOps0)
theorem W1_arg4 : W1 m ρ c (Proc.devRef .tc main_arg4) = m ((c : Thread nD τ).loc main_arg4) := kept0 m ρ c main_arg4 (by not_written_by hostOps0)

/-! ## After the first region -/

theorem W2_arg1 : W2 m ρ c (Proc.devRef .tc main_arg1) = m ((c : Thread nD τ).loc main_arg1) :=
  (W2_of_ne m ρ c main_arg1 (by decide)).trans (kept0 m ρ c main_arg1 (by not_written_by hostOps0))
theorem W2_arg2 : W2 m ρ c (Proc.devRef .tc main_arg2) = m ((c : Thread nD τ).loc main_arg2) :=
  (W2_of_ne m ρ c main_arg2 (by decide)).trans (kept0 m ρ c main_arg2 (by not_written_by hostOps0))
theorem W2_arg8 : W2 m ρ c (Proc.devRef .tc main_arg8) = m ((c : Thread nD τ).loc main_arg8) :=
  (W2_of_ne m ρ c main_arg8 (by decide)).trans (kept0 m ρ c main_arg8 (by not_written_by hostOps0))
theorem W2_deg : W2 m ρ c (Proc.devRef .tc main_v8) = Cert.ReferenceIdeal.Read.val_main_v8 (F := F) (m ((c : Thread nD τ).loc main_arg2)) :=
  (W2_of_ne m ρ c main_v8 (by decide)).trans (deg_entry m ρ c)

/-! ## The second stretch -/

/-- The neighbour means of the first region's output, when that output is the reference's first layer. -/
theorem means1 (x0 : (⟨S100000x64, .f32⟩ : BufTy).Contents (Elt F)) (x1 x2 : (⟨S1600000, .i32⟩ : BufTy).Contents (Elt F))
    (x3 x4 : (⟨S64x64, .f32⟩ : BufTy).Contents (Elt F)) (x5 : (⟨S64, .f32⟩ : BufTy).Contents (Elt F))
    (hout : W2 m ρ c (Proc.devRef .tc main_v22) = Cert.ReferenceIdeal.Read.val_main_v27 (F := F) x0 x1 x2 x3 x4 x5)
    (h1 : W2 m ρ c (Proc.devRef .tc main_arg1) = x1) (h2 : W2 m ρ c (Proc.devRef .tc main_arg2) = x2)
    (hd : W2 m ρ c (Proc.devRef .tc main_v8) = Cert.ReferenceIdeal.Read.val_main_v8 (F := F) x2) :
    W3 m ρ c (Proc.devRef .tc main_v34) = Cert.ReferenceIdeal.Read.val_main_v39 (F := F) x0 x1 x2 x3 x4 x5 := by
  show StableHlo.after hostOps1 (W2 m ρ c) (Proc.devRef .tc main_v34) = _
  after_results_simp
  rw [hout, h1, h2, hd]
  rfl

/-- The second bias as a one-row matrix. -/
theorem bias1 (q : Fin 64) : V3 m ρ c main_v35 (ix2 (0 : Fin 1) q) = (m ((c : Thread nD τ).loc main_arg8)) (ix1 q) := by
  have e : StableHlo.after hostOps1 (W2 m ρ c) (Proc.devRef .tc main_v35) = shapeCast S1x64 (W2 m ρ c (Proc.devRef .tc main_arg8)) shapeCasts_S64_S1x64 := by
    after_results_simp
    rfl
  show StableHlo.after hostOps1 (W2 m ρ c) (Proc.devRef .tc main_v35) (ix2 (0 : Fin 1) q) = _
  rw [e, W2_arg8 m ρ c]
  exact shapeCast_a_1a_apply _ _ 0 q

theorem W3_out0 : W3 m ρ c (Proc.devRef .tc main_v22) = W2 m ρ c (Proc.devRef .tc main_v22) := kept1 m ρ c main_v22 (by not_written_by hostOps1)
theorem W3_arg6 : W3 m ρ c (Proc.devRef .tc main_arg6) = m ((c : Thread nD τ).loc main_arg6) :=
  (kept1 m ρ c main_arg6 (by not_written_by hostOps1)).trans ((W2_of_ne m ρ c main_arg6 (by decide)).trans (kept0 m ρ c main_arg6 (by not_written_by hostOps0)))
theorem W3_arg7 : W3 m ρ c (Proc.devRef .tc main_arg7) = m ((c : Thread nD τ).loc main_arg7) :=
  (kept1 m ρ c main_arg7 (by not_written_by hostOps1)).trans ((W2_of_ne m ρ c main_arg7 (by decide)).trans (kept0 m ρ c main_arg7 (by not_written_by hostOps0)))

/-! ## After the second region -/

theorem W4_arg1 : W4 m ρ c (Proc.devRef .tc main_arg1) = m ((c : Thread nD τ).loc main_arg1) :=
  (W4_of_ne m ρ c main_arg1 (by decide)).trans ((kept1 m ρ c main_arg1 (by not_written_by hostOps1)).trans (W2_arg1 m ρ c))
theorem W4_arg2 : W4 m ρ c (Proc.devRef .tc main_arg2) = m ((c : Thread nD τ).loc main_arg2) :=
  (W4_of_ne m ρ c main_arg2 (by decide)).trans ((kept1 m ρ c main_arg2 (by not_written_by hostOps1)).trans (W2_arg2 m ρ c))
theorem W4_arg11 : W4 m ρ c (Proc.devRef .tc main_arg11) = m ((c : Thread nD τ).loc main_arg11) :=
  (W4_of_ne m ρ c main_arg11 (by decide)).trans ((kept1 m ρ c main_arg11 (by not_written_by hostOps1)).trans
    ((W2_of_ne m ρ c main_arg11 (by decide)).trans (kept0 m ρ c main_arg11 (by not_written_by hostOps0))))
theorem W4_deg : W4 m ρ c (Proc.devRef .tc main_v8) = Cert.ReferenceIdeal.Read.val_main_v8 (F := F) (m ((c : Thread nD τ).loc main_arg2)) :=
  (W4_of_ne m ρ c main_v8 (by decide)).trans ((kept1 m ρ c main_v8 (by not_written_by hostOps1)).trans (W2_deg m ρ c))

/-! ## The third stretch -/

/-- The neighbour means of the second region's output, when that output is the reference's second layer. -/
theorem means2 (x0 : (⟨S100000x64, .f32⟩ : BufTy).Contents (Elt F)) (x1 x2 : (⟨S1600000, .i32⟩ : BufTy).Contents (Elt F))
    (x3 x4 : (⟨S64x64, .f32⟩ : BufTy).Contents (Elt F)) (x5 : (⟨S64, .f32⟩ : BufTy).Contents (Elt F))
    (x6 x7 : (⟨S64x64, .f32⟩ : BufTy).Contents (Elt F)) (x8 : (⟨S64, .f32⟩ : BufTy).Contents (Elt F))
    (hout : W4 m ρ c (Proc.devRef .tc main_v36) = Cert.ReferenceIdeal.Read.val_main_v46 (F := F) x0 x1 x2 x3 x4 x5 x6 x7 x8)
    (h1 : W4 m ρ c (Proc.devRef .tc main_arg1) = x1) (h2 : W4 m ρ c (Proc.devRef .tc main_arg2) = x2)
    (hd : W4 m ρ c (Proc.devRef .tc main_v8) = Cert.ReferenceIdeal.Read.val_main_v8 (F := F) x2) :
    W5 m ρ c (Proc.devRef .tc main_v48) = Cert.ReferenceIdeal.Read.val_main_v58 (F := F) x0 x1 x2 x3 x4 x5 x6 x7 x8 := by
  show StableHlo.after hostOps2 (W4 m ρ c) (Proc.devRef .tc main_v48) = _
  after_results_simp
  rw [hout, h1, h2, hd]
  rfl

/-- The third bias as a one-row matrix. -/
theorem bias2 (q : Fin 64) : V5 m ρ c main_v49 (ix2 (0 : Fin 1) q) = (m ((c : Thread nD τ).loc main_arg11)) (ix1 q) := by
  have e : StableHlo.after hostOps2 (W4 m ρ c) (Proc.devRef .tc main_v49) = shapeCast S1x64 (W4 m ρ c (Proc.devRef .tc main_arg11)) shapeCasts_S64_S1x64 := by
    after_results_simp
    rfl
  show StableHlo.after hostOps2 (W4 m ρ c) (Proc.devRef .tc main_v49) (ix2 (0 : Fin 1) q) = _
  rw [e, W4_arg11 m ρ c]
  exact shapeCast_a_1a_apply _ _ 0 q

theorem W5_out1 : W5 m ρ c (Proc.devRef .tc main_v36) = W4 m ρ c (Proc.devRef .tc main_v36) := kept2 m ρ c main_v36 (by not_written_by hostOps2)
theorem W5_arg9 : W5 m ρ c (Proc.devRef .tc main_arg9) = m ((c : Thread nD τ).loc main_arg9) :=
  (kept2 m ρ c main_arg9 (by not_written_by hostOps2)).trans ((W4_of_ne m ρ c main_arg9 (by decide)).trans ((kept1 m ρ c main_arg9 (by not_written_by hostOps1)).trans
    ((W2_of_ne m ρ c main_arg9 (by decide)).trans (kept0 m ρ c main_arg9 (by not_written_by hostOps0)))))
theorem W5_arg10 : W5 m ρ c (Proc.devRef .tc main_arg10) = m ((c : Thread nD τ).loc main_arg10) :=
  (kept2 m ρ c main_arg10 (by not_written_by hostOps2)).trans ((W4_of_ne m ρ c main_arg10 (by decide)).trans ((kept1 m ρ c main_arg10 (by not_written_by hostOps1)).trans
    ((W2_of_ne m ρ c main_arg10 (by decide)).trans (kept0 m ρ c main_arg10 (by not_written_by hostOps0)))))

end Cert.KernelIdeal.Host

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.SageSpec.lean ====
/-
  One layer of mean-aggregating graph convolution, entry by entry, on the extended reals.

  A layer takes the node features `h` ([100000, 64]), the degree-normalised neighbour sums `hn` (same shape), two
  64 × 64 weight matrices and a bias row of 64 entries. Its pre-activation at node `p` and output feature `q` is

      (Σ_a h[p, a] · ws[a, q]  +  Σ_a hn[p, a] · wn[a, q])  +  b[q],

  the two sums over the 64 input features, added in exactly this grouping. The first two layers clamp the result below
  at the float zero; the last layer returns it as it is. Nothing here depends on a program: both sides of the
  certificate are shown to compute these functions.
-/
import Idealize.ShloMosaic.Lib.ValueIdx
import Idealize.ShloMosaic.PureOps.Ideal.Laws

noncomputable section

open scoped BigOperators

namespace Cert.Sage

open Idealize.ShloMosaic Idealize.ShloMosaic.ValueIdx

/-- Node features, and neighbour means: 100000 nodes by 64 features. -/
abbrev SN : Shape := ⟨2, ![100000, 64]⟩
/-- A weight matrix. -/
abbrev SW : Shape := ⟨2, ![64, 64]⟩
/-- The bias as the one-row matrix a kernel reads it as. -/
abbrev SB : Shape := ⟨2, ![1, 64]⟩
/-- The bias as the flat array the caller passes. -/
abbrev SV : Shape := ⟨1, ![64]⟩

/-- The float zero the activation clamps at. -/
abbrev zero : EReal := Ideal.ofBits .f32 0x00000000#32

/-- The pre-activation of one layer at node `p`, feature `q`, the bias given as a flat array. -/
def linAt (h hn : SN.Idx → EReal) (ws wn : SW.Idx → EReal) (b : SV.Idx → EReal) (p : Fin 100000) (q : Fin 64) : EReal :=
  ((∑ a : Fin 64, h (ix2 p a) * ws (ix2 a q)) + (∑ a : Fin 64, hn (ix2 p a) * wn (ix2 a q))) + b (ix1 q)

/-- A layer without activation, as a whole array. -/
def lin (h hn : SN.Idx → EReal) (ws wn : SW.Idx → EReal) (b : SV.Idx → EReal) : SN.Idx → EReal :=
  fun i => linAt h hn ws wn b (i 0) (i 1)

/-- A layer with the clamp at zero, as a whole array. -/
def act (h hn : SN.Idx → EReal) (ws wn : SW.Idx → EReal) (b : SV.Idx → EReal) : SN.Idx → EReal :=
  fun i => max (linAt h hn ws wn b (i 0) (i 1)) zero

theorem lin_ix2 (h hn : SN.Idx → EReal) (ws wn : SW.Idx → EReal) (b : SV.Idx → EReal) (p : Fin 100000) (q : Fin 64) :
    lin h hn ws wn b (ix2 p q) = linAt h hn ws wn b p q := rfl

theorem act_ix2 (h hn : SN.Idx → EReal) (ws wn : SW.Idx → EReal) (b : SV.Idx → EReal) (p : Fin 100000) (q : Fin 64) :
    act h hn ws wn b (ix2 p q) = max (linAt h hn ws wn b p q) zero := rfl

end Cert.Sage

end
-- ==== Proof.KPayload.lean ====
/-
  What each region's body stores, read at one entry, on the extended reals.

  The three bodies load a 5000 × 64 block of node features, the matching block of neighbour means, the two 64 × 64
  weight matrices and the 1 × 64 bias row, and store one 5000 × 64 block. Read at row `p` and column `q` the stored
  value is Σ_a x[p, a] · ws[a, q] + Σ_a xn[p, a] · wn[a, q] + b[0, q], clamped at zero in the first two regions.
-/
import proofs.«135646_j24326694764904_1_alg».proof.Proof.Gen.KernelIdeal.Skeleton
import proofs.«135646_j24326694764904_1_alg».proof.Proof.LibDot2
import proofs.«135646_j24326694764904_1_alg».proof.Proof.SageSpec
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The matrix product's dimension numbers: which coordinate of each operand is whose -/

/-- The left operand's row is the output's row. -/
theorem dotL0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contracted feature. -/
theorem dotL1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- The right operand's row is the contracted feature. -/
theorem dotR0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- The right operand's column is the output's column. -/
theorem dotR1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The three payloads at an entry -/

/-- What region 0's body stores at row `p`, column `q` of its output block, from the blocks it loads: row `p` of the
    feature block against column `q` of the self weights, plus row `p` of the neighbour block against column `q` of
    the neighbour weights, plus the bias at `q`, clamped below at zero. The changes of float format are the identity on the extended
    reals, and each product into the zero accumulator is the plain sum over the 64 contracted features. -/
theorem pay0_at (x0 x1 : Vec Ideal S5000x64 .f32) (x2 x3 : Vec Ideal S64x64 .f32) (x4 : Vec Ideal S1x64 .f32) (p : Fin 5000) (q : Fin 64) :
    k0_pay1 (F := Ideal) x0 x1 x2 x3 x4 (ix2 p q)
      = max (((∑ a : Fin 64, x0 (ix2 p a) * x2 (ix2 a q)) + (∑ a : Fin 64, x1 (ix2 p a) * x3 (ix2 a q))) + x4 (ix2 (0 : Fin 1) q)) Cert.Sage.zero := by
  unfold k0_pay1
  rw [maximumf_apply, addf_apply, addf_apply,
    Cert.Lib.Dot2.matmul_zero_ix2 dot_S5000x64_S64x64_S5000x64_1_0_0_1_n_n none rfl rfl dotL0 dotL1 dotR0 dotR1,
    Cert.Lib.Dot2.matmul_zero_ix2 dot_S5000x64_S64x64_S5000x64_1_0_0_1_n_n none rfl rfl dotL0 dotL1 dotR0 dotR1,
    broadcastTo_1b_ab_apply]
  simp only [shapeCast_self, truncf_apply]
  rfl

/-- What region 1's body stores at row `p`, column `q` of its output block, from the blocks it loads: row `p` of the
    feature block against column `q` of the self weights, plus row `p` of the neighbour block against column `q` of
    the neighbour weights, plus the bias at `q`, clamped below at zero. The changes of float format are the identity on the extended
    reals, and each product into the zero accumulator is the plain sum over the 64 contracted features. -/
theorem pay1_at (x0 x1 : Vec Ideal S5000x64 .f32) (x2 x3 : Vec Ideal S64x64 .f32) (x4 : Vec Ideal S1x64 .f32) (p : Fin 5000) (q : Fin 64) :
    k1_pay1 (F := Ideal) x0 x1 x2 x3 x4 (ix2 p q)
      = max (((∑ a : Fin 64, x0 (ix2 p a) * x2 (ix2 a q)) + (∑ a : Fin 64, x1 (ix2 p a) * x3 (ix2 a q))) + x4 (ix2 (0 : Fin 1) q)) Cert.Sage.zero := by
  unfold k1_pay1
  rw [maximumf_apply, addf_apply, addf_apply,
    Cert.Lib.Dot2.matmul_zero_ix2 dot_S5000x64_S64x64_S5000x64_1_0_0_1_n_n none rfl rfl dotL0 dotL1 dotR0 dotR1,
    Cert.Lib.Dot2.matmul_zero_ix2 dot_S5000x64_S64x64_S5000x64_1_0_0_1_n_n none rfl rfl dotL0 dotL1 dotR0 dotR1,
    broadcastTo_1b_ab_apply]
  simp only [shapeCast_self, truncf_apply]
  rfl

/-- What region 2's body stores at row `p`, column `q` of its output block, from the blocks it loads: row `p` of the
    feature block against column `q` of the self weights, plus row `p` of the neighbour block against column `q` of
    the neighbour weights, plus the bias at `q`. The changes of float format are the identity on the extended
    reals, and each product into the zero accumulator is the plain sum over the 64 contracted features. -/
theorem pay2_at (x0 x1 : Vec Ideal S5000x64 .f32) (x2 x3 : Vec Ideal S64x64 .f32) (x4 : Vec Ideal S1x64 .f32) (p : Fin 5000) (q : Fin 64) :
    k2_pay1 (F := Ideal) x0 x1 x2 x3 x4 (ix2 p q)
      = ((∑ a : Fin 64, x0 (ix2 p a) * x2 (ix2 a q)) + (∑ a : Fin 64, x1 (ix2 p a) * x3 (ix2 a q))) + x4 (ix2 (0 : Fin 1) q) := by
  unfold k2_pay1
  rw [addf_apply, addf_apply,
    Cert.Lib.Dot2.matmul_zero_ix2 dot_S5000x64_S64x64_S5000x64_1_0_0_1_n_n none rfl rfl dotL0 dotL1 dotR0 dotR1,
    Cert.Lib.Dot2.matmul_zero_ix2 dot_S5000x64_S64x64_S5000x64_1_0_0_1_n_n none rfl rfl dotL0 dotL1 dotR0 dotR1,
    broadcastTo_1b_ab_apply]
  simp only [shapeCast_self, truncf_apply]

end Cert.KernelIdeal.Pay

end
-- ==== Proof.Region0.lean ====
/-
  The array a region leaves: one layer of the network applied to the arrays the region finds.

  The region runs over 20 grid points. At point `t` its body sees rows 5000·t … 5000·t + 4999 of the node features
  and of the neighbour means, the two whole weight matrices and the whole bias row, and writes the same rows of the
  output. Row `p` of a block is row 5000·t + p of the array, and a column of a block is the same column of the array,
  so what point `t` writes back is the layer function of the whole arrays read through point `t`'s rows. The 20 row
  blocks cover all 100000 rows (row r lies in block r / 5000), so the output array ends holding the layer function
  everywhere. The bias is taken as any flat array that the region's one-row bias operand agrees with.
-/
import proofs.«135646_j24326694764904_1_alg».proof.Proof.KernelIdealFrame
import proofs.«135646_j24326694764904_1_alg».proof.Proof.KPayload
import Idealize.ShloMosaic.Lib.Pipeline.Value

set_option maxRecDepth 16384

noncomputable section

open scoped BigOperators

namespace Cert.KernelIdeal.Region0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the three row-blocked windows sit at block row `t`, block column 0; the weights and
    the bias stay at block (0, 0); and there are 20 points. -/
theorem index_maps : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the array that row `p` of point `t`'s block is. -/
def rowOf (t : Fin cfg0.N) (p : Fin 5000) : Fin 100000 := ⟨t.val * 5000 + p.val, by have := (index_maps t).1; omega⟩

/-! ## The input blocks at an entry -/

/-- Row `p`, column `a` of the feature block at point `t` is the feature array at row 5000·t + p, column `a`. -/
theorem features_at (c : Dev nD) (t : Fin cfg0.N) (p : Fin 5000) (a : Fin 64) :
    iblk0 V c 0 t (ix2 p a) = V c main_arg0 (ix2 (rowOf t p) a) := by
  obtain ⟨-, e0, e1, -⟩ := index_maps t
  show V c main_arg0 (((cfg0.win 0).blk t).view.emb (ix2 p a)) = _
  refine congrArg _ (funext fun d => Fin.ext ?_)
  match d with
  | ⟨0, _⟩ => show win0_0.index t (0 : Fin 2) * 5000 + 1 * p.val = t.val * 5000 + p.val; omega
  | ⟨1, _⟩ => show win0_0.index t (1 : Fin 2) * 64 + 1 * a.val = a.val; omega

/-- The same for the block of neighbour means. -/
theorem neighbours_at (c : Dev nD) (t : Fin cfg0.N) (p : Fin 5000) (a : Fin 64) :
    iblk0 V c 1 t (ix2 p a) = V c main_v20 (ix2 (rowOf t p) a) := by
  obtain ⟨-, -, -, e0, e1, -⟩ := index_maps t
  show V c main_v20 (((cfg0.win 1).blk t).view.emb (ix2 p a)) = _
  refine congrArg _ (funext fun d => Fin.ext ?_)
  match d with
  | ⟨0, _⟩ => show win0_1.index t (0 : Fin 2) * 5000 + 1 * p.val = t.val * 5000 + p.val; omega
  | ⟨1, _⟩ => show win0_1.index t (1 : Fin 2) * 64 + 1 * a.val = a.val; omega

/-- The self-weight block is the whole matrix at every point. -/
theorem wself_at (c : Dev nD) (t : Fin cfg0.N) (a q : Fin 64) :
    iblk0 V c 2 t (ix2 a q) = V c main_arg3 (ix2 a q) := by
  obtain ⟨-, -, -, -, -, e0, e1, -⟩ := index_maps t
  show V c main_arg3 (((cfg0.win 2).blk t).view.emb (ix2 a q)) = _
  refine congrArg _ (funext fun d => Fin.ext ?_)
  match d with
  | ⟨0, _⟩ => show win0_2.index t (0 : Fin 2) * 64 + 1 * a.val = a.val; omega
  | ⟨1, _⟩ => show win0_2.index t (1 : Fin 2) * 64 + 1 * q.val = q.val; omega

/-- The neighbour-weight block is the whole matrix at every point. -/
theorem wneigh_at (c : Dev nD) (t : Fin cfg0.N) (a q : Fin 64) :
    iblk0 V c 3 t (ix2 a q) = V c main_arg4 (ix2 a q) := by
  obtain ⟨-, -, -, -, -, -, -, e0, e1, -⟩ := index_maps t
  show V c main_arg4 (((cfg0.win 3).blk t).view.emb (ix2 a q)) = _
  refine congrArg _ (funext fun d => Fin.ext ?_)
  match d with
  | ⟨0, _⟩ => show win0_3.index t (0 : Fin 2) * 64 + 1 * a.val = a.val; omega
  | ⟨1, _⟩ => show win0_3.index t (1 : Fin 2) * 64 + 1 * q.val = q.val; omega

/-- The bias block is the whole one-row operand at every point. -/
theorem bias_at (c : Dev nD) (t : Fin cfg0.N) (q : Fin 64) :
    iblk0 V c 4 t (ix2 (0 : Fin 1) q) = V c main_v21 (ix2 (0 : Fin 1) q) := by
  obtain ⟨-, -, -, -, -, -, -, -, -, e0, e1, -⟩ := index_maps t
  show V c main_v21 (((cfg0.win 4).blk t).view.emb (ix2 (0 : Fin 1) q)) = _
  refine congrArg _ (funext fun d => Fin.ext ?_)
  match d with
  | ⟨0, _⟩ => show win0_4.index t (0 : Fin 2) * 1 + 1 * (0 : Fin 1).val = (0 : Fin 1).val; omega
  | ⟨1, _⟩ => show win0_4.index t (1 : Fin 2) * 64 + 1 * q.val = q.val; omega

/-- Row `p`, column `q` of the output block at point `t` is the output array's row 5000·t + p, column `q`. -/
theorem out_entry (t : Fin cfg0.N) (p : Fin 5000) (q : Fin 64) :
    ((cfg0.win 5).blk t).view.emb (ix2 p q) = ix2 (rowOf t p) q := by
  obtain ⟨-, -, -, -, -, -, -, -, -, -, -, e0, e1⟩ := index_maps t
  refine funext fun d => Fin.ext ?_
  match d with
  | ⟨0, _⟩ => show win0_5.index t (0 : Fin 2) * 5000 + 1 * p.val = t.val * 5000 + p.val; omega
  | ⟨1, _⟩ => show win0_5.index t (1 : Fin 2) * 64 + 1 * q.val = q.val; omega

/-! ## What a point writes back, and the whole array -/

/-- What point `t` writes back is the layer function of the whole arrays, read through point `t`'s block. -/
theorem written_back (c : Dev nD) (b : Cert.Sage.SV.Idx → EReal)
    (hb : ∀ q : Fin 64, V c main_v21 (ix2 (0 : Fin 1) q) = b (ix1 q)) (t : Fin cfg0.N) :
    (dat0 (F := Ideal) V c).flushed 5 t
      = ((cfg0.win 5).blk t).view.read (Elt Ideal) (Cert.Sage.act (V c main_arg0) (V c main_v20) (V c main_arg3) (V c main_arg4) b) := by
  show (cfg0.win 5).cut (grid0.coords t) ((dat0 (F := Ideal) V c).after 5 t) = _
  rw [after0_5]
  unfold out0_5
  rw [View.canon_unit_zero offsets_zero]
  simp only [View.ld_unit_zero (S := S5000x64) offsets_zero, View.ld_unit_zero (S := S64x64) offsets_zero, View.ld_unit_zero (S := S1x64) offsets_zero]
  funext j
  obtain ⟨p, q, rfl⟩ : ∃ (p : Fin 5000) (q : Fin 64), j = ix2 p q := ⟨j 0, j 1, eq_ix2 j⟩
  refine (pay0_at (iblk0 V c 0 t) (iblk0 V c 1 t) (iblk0 V c 2 t) (iblk0 V c 3 t) (iblk0 V c 4 t) p q).trans ?_
  show _ = Cert.Sage.act (V c main_arg0) (V c main_v20) (V c main_arg3) (V c main_arg4) b (((cfg0.win 5).blk t).view.emb (ix2 p q))
  rw [out_entry t p q, Cert.Sage.act_ix2]
  unfold Cert.Sage.linAt
  simp only [features_at V c t, neighbours_at V c t, wself_at V c t, wneigh_at V c t, bias_at V c t, hb]

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v22).slice (win0_5.rect t)).set ↔ _
  rw [View.set_slice_whole, Rect.mem_set_unit]
  exact Iff.rfl

/-- Every entry of the output array lies in the block of the point its row divides down to. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by show _ < grid0.N; rw [N_0]; omega
  refine ⟨⟨(i 0).val / 5000, hN⟩, flush0_5 _, ?_⟩
  obtain ⟨-, -, -, -, -, -, -, -, -, -, -, e0, e1⟩ := index_maps ⟨(i 0).val / 5000, hN⟩
  rw [mem_block]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    rw [e1]; omega

/-- THE ARRAY the region leaves in its output: the layer function of the arrays it found. -/
theorem value (c : Dev nD) (b : Cert.Sage.SV.Idx → EReal)
    (hb : ∀ q : Fin 64, V c main_v21 (ix2 (0 : Fin 1) q) = b (ix1 q)) :
    (dat0 (F := Ideal) V c).arrAt 5 cfg0.N
      = Cert.Sage.act (V c main_arg0) (V c main_v20) (V c main_arg3) (V c main_arg4) b :=
  (dat0 (F := Ideal) V c).arrAt_eq_of_cover 5 _ (fun t _ => written_back V c b hb t) covered

end Cert.KernelIdeal.Region0

end
-- ==== Proof.Region1.lean ====
/-
  The array a region leaves: one layer of the network applied to the arrays the region finds.

  The region runs over 20 grid points. At point `t` its body sees rows 5000·t … 5000·t + 4999 of the node features
  and of the neighbour means, the two whole weight matrices and the whole bias row, and writes the same rows of the
  output. Row `p` of a block is row 5000·t + p of the array, and a column of a block is the same column of the array,
  so what point `t` writes back is the layer function of the whole arrays read through point `t`'s rows. The 20 row
  blocks cover all 100000 rows (row r lies in block r / 5000), so the output array ends holding the layer function
  everywhere. The bias is taken as any flat array that the region's one-row bias operand agrees with.
-/
import proofs.«135646_j24326694764904_1_alg».proof.Proof.KernelIdealFrame
import proofs.«135646_j24326694764904_1_alg».proof.Proof.KPayload
import Idealize.ShloMosaic.Lib.Pipeline.Value

set_option maxRecDepth 16384

noncomputable section

open scoped BigOperators

namespace Cert.KernelIdeal.Region1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the three row-blocked windows sit at block row `t`, block column 0; the weights and
    the bias stay at block (0, 0); and there are 20 points. -/
theorem index_maps : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row of the array that row `p` of point `t`'s block is. -/
def rowOf (t : Fin cfg1.N) (p : Fin 5000) : Fin 100000 := ⟨t.val * 5000 + p.val, by have := (index_maps t).1; omega⟩

/-! ## The input blocks at an entry -/

/-- Row `p`, column `a` of the feature block at point `t` is the feature array at row 5000·t + p, column `a`. -/
theorem features_at (c : Dev nD) (t : Fin cfg1.N) (p : Fin 5000) (a : Fin 64) :
    iblk1 V c 0 t (ix2 p a) = V c main_v22 (ix2 (rowOf t p) a) := by
  obtain ⟨-, e0, e1, -⟩ := index_maps t
  show V c main_v22 (((cfg1.win 0).blk t).view.emb (ix2 p a)) = _
  refine congrArg _ (funext fun d => Fin.ext ?_)
  match d with
  | ⟨0, _⟩ => show win1_0.index t (0 : Fin 2) * 5000 + 1 * p.val = t.val * 5000 + p.val; omega
  | ⟨1, _⟩ => show win1_0.index t (1 : Fin 2) * 64 + 1 * a.val = a.val; omega

/-- The same for the block of neighbour means. -/
theorem neighbours_at (c : Dev nD) (t : Fin cfg1.N) (p : Fin 5000) (a : Fin 64) :
    iblk1 V c 1 t (ix2 p a) = V c main_v34 (ix2 (rowOf t p) a) := by
  obtain ⟨-, -, -, e0, e1, -⟩ := index_maps t
  show V c main_v34 (((cfg1.win 1).blk t).view.emb (ix2 p a)) = _
  refine congrArg _ (funext fun d => Fin.ext ?_)
  match d with
  | ⟨0, _⟩ => show win1_1.index t (0 : Fin 2) * 5000 + 1 * p.val = t.val * 5000 + p.val; omega
  | ⟨1, _⟩ => show win1_1.index t (1 : Fin 2) * 64 + 1 * a.val = a.val; omega

/-- The self-weight block is the whole matrix at every point. -/
theorem wself_at (c : Dev nD) (t : Fin cfg1.N) (a q : Fin 64) :
    iblk1 V c 2 t (ix2 a q) = V c main_arg6 (ix2 a q) := by
  obtain ⟨-, -, -, -, -, e0, e1, -⟩ := index_maps t
  show V c main_arg6 (((cfg1.win 2).blk t).view.emb (ix2 a q)) = _
  refine congrArg _ (funext fun d => Fin.ext ?_)
  match d with
  | ⟨0, _⟩ => show win1_2.index t (0 : Fin 2) * 64 + 1 * a.val = a.val; omega
  | ⟨1, _⟩ => show win1_2.index t (1 : Fin 2) * 64 + 1 * q.val = q.val; omega

/-- The neighbour-weight block is the whole matrix at every point. -/
theorem wneigh_at (c : Dev nD) (t : Fin cfg1.N) (a q : Fin 64) :
    iblk1 V c 3 t (ix2 a q) = V c main_arg7 (ix2 a q) := by
  obtain ⟨-, -, -, -, -, -, -, e0, e1, -⟩ := index_maps t
  show V c main_arg7 (((cfg1.win 3).blk t).view.emb (ix2 a q)) = _
  refine congrArg _ (funext fun d => Fin.ext ?_)
  match d with
  | ⟨0, _⟩ => show win1_3.index t (0 : Fin 2) * 64 + 1 * a.val = a.val; omega
  | ⟨1, _⟩ => show win1_3.index t (1 : Fin 2) * 64 + 1 * q.val = q.val; omega

/-- The bias block is the whole one-row operand at every point. -/
theorem bias_at (c : Dev nD) (t : Fin cfg1.N) (q : Fin 64) :
    iblk1 V c 4 t (ix2 (0 : Fin 1) q) = V c main_v35 (ix2 (0 : Fin 1) q) := by
  obtain ⟨-, -, -, -, -, -, -, -, -, e0, e1, -⟩ := index_maps t
  show V c main_v35 (((cfg1.win 4).blk t).view.emb (ix2 (0 : Fin 1) q)) = _
  refine congrArg _ (funext fun d => Fin.ext ?_)
  match d with
  | ⟨0, _⟩ => show win1_4.index t (0 : Fin 2) * 1 + 1 * (0 : Fin 1).val = (0 : Fin 1).val; omega
  | ⟨1, _⟩ => show win1_4.index t (1 : Fin 2) * 64 + 1 * q.val = q.val; omega

/-- Row `p`, column `q` of the output block at point `t` is the output array's row 5000·t + p, column `q`. -/
theorem out_entry (t : Fin cfg1.N) (p : Fin 5000) (q : Fin 64) :
    ((cfg1.win 5).blk t).view.emb (ix2 p q) = ix2 (rowOf t p) q := by
  obtain ⟨-, -, -, -, -, -, -, -, -, -, -, e0, e1⟩ := index_maps t
  refine funext fun d => Fin.ext ?_
  match d with
  | ⟨0, _⟩ => show win1_5.index t (0 : Fin 2) * 5000 + 1 * p.val = t.val * 5000 + p.val; omega
  | ⟨1, _⟩ => show win1_5.index t (1 : Fin 2) * 64 + 1 * q.val = q.val; omega

/-! ## What a point writes back, and the whole array -/

/-- What point `t` writes back is the layer function of the whole arrays, read through point `t`'s block. -/
theorem written_back (c : Dev nD) (b : Cert.Sage.SV.Idx → EReal)
    (hb : ∀ q : Fin 64, V c main_v35 (ix2 (0 : Fin 1) q) = b (ix1 q)) (t : Fin cfg1.N) :
    (dat1 (F := Ideal) V c).flushed 5 t
      = ((cfg1.win 5).blk t).view.read (Elt Ideal) (Cert.Sage.act (V c main_v22) (V c main_v34) (V c main_arg6) (V c main_arg7) b) := by
  show (cfg1.win 5).cut (grid1.coords t) ((dat1 (F := Ideal) V c).after 5 t) = _
  rw [after1_5]
  unfold out1_5
  rw [View.canon_unit_zero offsets_zero]
  simp only [View.ld_unit_zero (S := S5000x64) offsets_zero, View.ld_unit_zero (S := S64x64) offsets_zero, View.ld_unit_zero (S := S1x64) offsets_zero]
  funext j
  obtain ⟨p, q, rfl⟩ : ∃ (p : Fin 5000) (q : Fin 64), j = ix2 p q := ⟨j 0, j 1, eq_ix2 j⟩
  refine (pay1_at (iblk1 V c 0 t) (iblk1 V c 1 t) (iblk1 V c 2 t) (iblk1 V c 3 t) (iblk1 V c 4 t) p q).trans ?_
  show _ = Cert.Sage.act (V c main_v22) (V c main_v34) (V c main_arg6) (V c main_arg7) b (((cfg1.win 5).blk t).view.emb (ix2 p q))
  rw [out_entry t p q, Cert.Sage.act_ix2]
  unfold Cert.Sage.linAt
  simp only [features_at V c t, neighbours_at V c t, wself_at V c t, wneigh_at V c t, bias_at V c t, hb]

/-- An index of the output array is in point `t`'s block iff each coordinate is in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v36).slice (win1_5.rect t)).set ↔ _
  rw [View.set_slice_whole, Rect.mem_set_unit]
  exact Iff.rfl

/-- Every entry of the output array lies in the block of the point its row divides down to. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := by show _ < grid1.N; rw [N_1]; omega
  refine ⟨⟨(i 0).val / 5000, hN⟩, flush1_5 _, ?_⟩
  obtain ⟨-, -, -, -, -, -, -, -, -, -, -, e0, e1⟩ := index_maps ⟨(i 0).val / 5000, hN⟩
  rw [mem_block]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e1]; omega

/-- THE ARRAY the region leaves in its output: the layer function of the arrays it found. -/
theorem value (c : Dev nD) (b : Cert.Sage.SV.Idx → EReal)
    (hb : ∀ q : Fin 64, V c main_v35 (ix2 (0 : Fin 1) q) = b (ix1 q)) :
    (dat1 (F := Ideal) V c).arrAt 5 cfg1.N
      = Cert.Sage.act (V c main_v22) (V c main_v34) (V c main_arg6) (V c main_arg7) b :=
  (dat1 (F := Ideal) V c).arrAt_eq_of_cover 5 _ (fun t _ => written_back V c b hb t) covered

end Cert.KernelIdeal.Region1

end
-- ==== Proof.Region2.lean ====
/-
  The array a region leaves: one layer of the network applied to the arrays the region finds.

  The region runs over 20 grid points. At point `t` its body sees rows 5000·t … 5000·t + 4999 of the node features
  and of the neighbour means, the two whole weight matrices and the whole bias row, and writes the same rows of the
  output. Row `p` of a block is row 5000·t + p of the array, and a column of a block is the same column of the array,
  so what point `t` writes back is the layer function of the whole arrays read through point `t`'s rows. The 20 row
  blocks cover all 100000 rows (row r lies in block r / 5000), so the output array ends holding the layer function
  everywhere. The bias is taken as any flat array that the region's one-row bias operand agrees with.
-/
import proofs.«135646_j24326694764904_1_alg».proof.Proof.KernelIdealFrame
import proofs.«135646_j24326694764904_1_alg».proof.Proof.KPayload
import Idealize.ShloMosaic.Lib.Pipeline.Value

set_option maxRecDepth 16384

noncomputable section

open scoped BigOperators

namespace Cert.KernelIdeal.Region2

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the three row-blocked windows sit at block row `t`, block column 0; the weights and
    the bias stay at block (0, 0); and there are 20 points. -/
theorem index_maps : ∀ t : Fin cfg2.N, t.val < 20
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row of the array that row `p` of point `t`'s block is. -/
def rowOf (t : Fin cfg2.N) (p : Fin 5000) : Fin 100000 := ⟨t.val * 5000 + p.val, by have := (index_maps t).1; omega⟩

/-! ## The input blocks at an entry -/

/-- Row `p`, column `a` of the feature block at point `t` is the feature array at row 5000·t + p, column `a`. -/
theorem features_at (c : Dev nD) (t : Fin cfg2.N) (p : Fin 5000) (a : Fin 64) :
    iblk2 V c 0 t (ix2 p a) = V c main_v36 (ix2 (rowOf t p) a) := by
  obtain ⟨-, e0, e1, -⟩ := index_maps t
  show V c main_v36 (((cfg2.win 0).blk t).view.emb (ix2 p a)) = _
  refine congrArg _ (funext fun d => Fin.ext ?_)
  match d with
  | ⟨0, _⟩ => show win2_0.index t (0 : Fin 2) * 5000 + 1 * p.val = t.val * 5000 + p.val; omega
  | ⟨1, _⟩ => show win2_0.index t (1 : Fin 2) * 64 + 1 * a.val = a.val; omega

/-- The same for the block of neighbour means. -/
theorem neighbours_at (c : Dev nD) (t : Fin cfg2.N) (p : Fin 5000) (a : Fin 64) :
    iblk2 V c 1 t (ix2 p a) = V c main_v48 (ix2 (rowOf t p) a) := by
  obtain ⟨-, -, -, e0, e1, -⟩ := index_maps t
  show V c main_v48 (((cfg2.win 1).blk t).view.emb (ix2 p a)) = _
  refine congrArg _ (funext fun d => Fin.ext ?_)
  match d with
  | ⟨0, _⟩ => show win2_1.index t (0 : Fin 2) * 5000 + 1 * p.val = t.val * 5000 + p.val; omega
  | ⟨1, _⟩ => show win2_1.index t (1 : Fin 2) * 64 + 1 * a.val = a.val; omega

/-- The self-weight block is the whole matrix at every point. -/
theorem wself_at (c : Dev nD) (t : Fin cfg2.N) (a q : Fin 64) :
    iblk2 V c 2 t (ix2 a q) = V c main_arg9 (ix2 a q) := by
  obtain ⟨-, -, -, -, -, e0, e1, -⟩ := index_maps t
  show V c main_arg9 (((cfg2.win 2).blk t).view.emb (ix2 a q)) = _
  refine congrArg _ (funext fun d => Fin.ext ?_)
  match d with
  | ⟨0, _⟩ => show win2_2.index t (0 : Fin 2) * 64 + 1 * a.val = a.val; omega
  | ⟨1, _⟩ => show win2_2.index t (1 : Fin 2) * 64 + 1 * q.val = q.val; omega

/-- The neighbour-weight block is the whole matrix at every point. -/
theorem wneigh_at (c : Dev nD) (t : Fin cfg2.N) (a q : Fin 64) :
    iblk2 V c 3 t (ix2 a q) = V c main_arg10 (ix2 a q) := by
  obtain ⟨-, -, -, -, -, -, -, e0, e1, -⟩ := index_maps t
  show V c main_arg10 (((cfg2.win 3).blk t).view.emb (ix2 a q)) = _
  refine congrArg _ (funext fun d => Fin.ext ?_)
  match d with
  | ⟨0, _⟩ => show win2_3.index t (0 : Fin 2) * 64 + 1 * a.val = a.val; omega
  | ⟨1, _⟩ => show win2_3.index t (1 : Fin 2) * 64 + 1 * q.val = q.val; omega

/-- The bias block is the whole one-row operand at every point. -/
theorem bias_at (c : Dev nD) (t : Fin cfg2.N) (q : Fin 64) :
    iblk2 V c 4 t (ix2 (0 : Fin 1) q) = V c main_v49 (ix2 (0 : Fin 1) q) := by
  obtain ⟨-, -, -, -, -, -, -, -, -, e0, e1, -⟩ := index_maps t
  show V c main_v49 (((cfg2.win 4).blk t).view.emb (ix2 (0 : Fin 1) q)) = _
  refine congrArg _ (funext fun d => Fin.ext ?_)
  match d with
  | ⟨0, _⟩ => show win2_4.index t (0 : Fin 2) * 1 + 1 * (0 : Fin 1).val = (0 : Fin 1).val; omega
  | ⟨1, _⟩ => show win2_4.index t (1 : Fin 2) * 64 + 1 * q.val = q.val; omega

/-- Row `p`, column `q` of the output block at point `t` is the output array's row 5000·t + p, column `q`. -/
theorem out_entry (t : Fin cfg2.N) (p : Fin 5000) (q : Fin 64) :
    ((cfg2.win 5).blk t).view.emb (ix2 p q) = ix2 (rowOf t p) q := by
  obtain ⟨-, -, -, -, -, -, -, -, -, -, -, e0, e1⟩ := index_maps t
  refine funext fun d => Fin.ext ?_
  match d with
  | ⟨0, _⟩ => show win2_5.index t (0 : Fin 2) * 5000 + 1 * p.val = t.val * 5000 + p.val; omega
  | ⟨1, _⟩ => show win2_5.index t (1 : Fin 2) * 64 + 1 * q.val = q.val; omega

/-! ## What a point writes back, and the whole array -/

/-- What point `t` writes back is the layer function of the whole arrays, read through point `t`'s block. -/
theorem written_back (c : Dev nD) (b : Cert.Sage.SV.Idx → EReal)
    (hb : ∀ q : Fin 64, V c main_v49 (ix2 (0 : Fin 1) q) = b (ix1 q)) (t : Fin cfg2.N) :
    (dat2 (F := Ideal) V c).flushed 5 t
      = ((cfg2.win 5).blk t).view.read (Elt Ideal) (Cert.Sage.lin (V c main_v36) (V c main_v48) (V c main_arg9) (V c main_arg10) b) := by
  show (cfg2.win 5).cut (grid2.coords t) ((dat2 (F := Ideal) V c).after 5 t) = _
  rw [after2_5]
  unfold out2_5
  rw [View.canon_unit_zero offsets_zero]
  simp only [View.ld_unit_zero (S := S5000x64) offsets_zero, View.ld_unit_zero (S := S64x64) offsets_zero, View.ld_unit_zero (S := S1x64) offsets_zero]
  funext j
  obtain ⟨p, q, rfl⟩ : ∃ (p : Fin 5000) (q : Fin 64), j = ix2 p q := ⟨j 0, j 1, eq_ix2 j⟩
  refine (pay2_at (iblk2 V c 0 t) (iblk2 V c 1 t) (iblk2 V c 2 t) (iblk2 V c 3 t) (iblk2 V c 4 t) p q).trans ?_
  show _ = Cert.Sage.lin (V c main_v36) (V c main_v48) (V c main_arg9) (V c main_arg10) b (((cfg2.win 5).blk t).view.emb (ix2 p q))
  rw [out_entry t p q, Cert.Sage.lin_ix2]
  unfold Cert.Sage.linAt
  simp only [features_at V c t, neighbours_at V c t, wself_at V c t, wneigh_at V c t, bias_at V c t, hb]

/-- An index of the output array is in point `t`'s block iff each coordinate is in the block's range on its axis. -/
theorem mem_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Every entry of the output array lies in the block of the point its row divides down to. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := by show _ < grid2.N; rw [N_2]; omega
  refine ⟨⟨(i 0).val / 5000, hN⟩, flush2_5 _, ?_⟩
  obtain ⟨-, -, -, -, -, -, -, -, -, -, -, e0, e1⟩ := index_maps ⟨(i 0).val / 5000, hN⟩
  rw [mem_block]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    rw [e1]; omega

/-- THE ARRAY the region leaves in its output: the layer function of the arrays it found. -/
theorem value (c : Dev nD) (b : Cert.Sage.SV.Idx → EReal)
    (hb : ∀ q : Fin 64, V c main_v49 (ix2 (0 : Fin 1) q) = b (ix1 q)) :
    (dat2 (F := Ideal) V c).arrAt 5 cfg2.N
      = Cert.Sage.lin (V c main_v36) (V c main_v48) (V c main_arg9) (V c main_arg10) b :=
  (dat2 (F := Ideal) V c).arrAt_eq_of_cover 5 _ (fun t _ => written_back V c b hb t) covered

end Cert.KernelIdeal.Region2

end
-- ==== Proof.RefLayers.lean ====
/-
  The reference, layer by layer.

  Each of the reference's three layers is two whole-array matrix products against the 64 × 64 weights, added, plus the
  bias broadcast over the rows, and for the first two layers a maximum against zero. Read at node `p` and feature `q`
  each matrix product is the sum over the 64 input features of a row entry times a column entry, and the bias
  broadcast reads entry `q` of the flat bias. So each layer's result is the layer function of the specification,
  applied to that layer's input features and to the neighbour means the program computed from them.
-/
import proofs.«135646_j24326694764904_1_alg».proof.Proof.Gen.ReferenceIdeal.Run
import proofs.«135646_j24326694764904_1_alg».proof.Proof.Gen.ReferenceIdeal.Read
import proofs.«135646_j24326694764904_1_alg».proof.Proof.SageSpec

noncomputable section

open scoped BigOperators

namespace Cert.ReferenceIdeal.Layers

open Cert.ReferenceIdeal Cert.ReferenceIdeal.Read Idealize.ShloMosaic Idealize.ShloMosaic.ValueIdx

/-- The first layer's result is the clamped layer function of the input features and their neighbour means. -/
theorem layer0 (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) (x5 : (⟨S64, .f32⟩ : BufTy).Contents (Elt Ideal)) :
    val_main_v27 (F := Ideal) x0 x1 x2 x3 x4 x5
      = Cert.Sage.act x0 (val_main_v20 (F := Ideal) x0 x1 x2) x3 x4 x5 := by
  funext i
  obtain ⟨p, q, rfl⟩ : ∃ (p : Fin 100000) (q : Fin 64), i = ix2 p q := ⟨i 0, i 1, eq_ix2 i⟩
  have el1 : ∀ k : Fin 64, lidx_main_v21 (ix2 p q) k = ix2 p k := fun k => funext fun a => Fin.ext (by
    match a with
    | ⟨0, _⟩ => rfl
    | ⟨1, _⟩ => rfl)
  have er1 : ∀ k : Fin 64, ridx_main_v21 (ix2 p q) k = ix2 k q := fun k => funext fun a => Fin.ext (by
    match a with
    | ⟨0, _⟩ => rfl
    | ⟨1, _⟩ => rfl)
  have el2 : ∀ k : Fin 64, lidx_main_v22 (ix2 p q) k = ix2 p k := fun k => funext fun a => Fin.ext (by
    match a with
    | ⟨0, _⟩ => rfl
    | ⟨1, _⟩ => rfl)
  have er2 : ∀ k : Fin 64, ridx_main_v22 (ix2 p q) k = ix2 k q := fun k => funext fun a => Fin.ext (by
    match a with
    | ⟨0, _⟩ => rfl
    | ⟨1, _⟩ => rfl)
  have eb : idx_main_v24 (idx_main_v25 (ix2 p q)) = ix1 q := funext fun a => Fin.ext (by
    match a with
    | ⟨0, _⟩ => rfl)
  rw [val_main_v27_apply, val_main_v26_apply, val_main_v23_apply, val_main_v21_apply, val_main_v22_apply, val_main_v25_apply,
    val_main_v24_apply, val_main_call0_v0_apply, val_main_call0_cst_apply, Cert.Sage.act_ix2]
  simp only [el1, er1, el2, er2, eb, Ideal.maximumf_def, Ideal.addf_def, Ideal.ofBits_def]
  rfl

/-- The second layer's result is the clamped layer function of the first layer's result and its neighbour means. -/
theorem layer1 (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal)) :
    val_main_v46 (F := Ideal) x0 x1 x2 x3 x4 x5 x6 x7 x8
      = Cert.Sage.act (val_main_v27 (F := Ideal) x0 x1 x2 x3 x4 x5) (val_main_v39 (F := Ideal) x0 x1 x2 x3 x4 x5) x6 x7 x8 := by
  funext i
  obtain ⟨p, q, rfl⟩ : ∃ (p : Fin 100000) (q : Fin 64), i = ix2 p q := ⟨i 0, i 1, eq_ix2 i⟩
  have el1 : ∀ k : Fin 64, lidx_main_v40 (ix2 p q) k = ix2 p k := fun k => funext fun a => Fin.ext (by
    match a with
    | ⟨0, _⟩ => rfl
    | ⟨1, _⟩ => rfl)
  have er1 : ∀ k : Fin 64, ridx_main_v40 (ix2 p q) k = ix2 k q := fun k => funext fun a => Fin.ext (by
    match a with
    | ⟨0, _⟩ => rfl
    | ⟨1, _⟩ => rfl)
  have el2 : ∀ k : Fin 64, lidx_main_v41 (ix2 p q) k = ix2 p k := fun k => funext fun a => Fin.ext (by
    match a with
    | ⟨0, _⟩ => rfl
    | ⟨1, _⟩ => rfl)
  have er2 : ∀ k : Fin 64, ridx_main_v41 (ix2 p q) k = ix2 k q := fun k => funext fun a => Fin.ext (by
    match a with
    | ⟨0, _⟩ => rfl
    | ⟨1, _⟩ => rfl)
  have eb : idx_main_v43 (idx_main_v44 (ix2 p q)) = ix1 q := funext fun a => Fin.ext (by
    match a with
    | ⟨0, _⟩ => rfl)
  rw [val_main_v46_apply, val_main_v45_apply, val_main_v42_apply, val_main_v40_apply, val_main_v41_apply, val_main_v44_apply,
    val_main_v43_apply, val_main_call1_v0_apply, val_main_call1_cst_apply, Cert.Sage.act_ix2]
  simp only [el1, er1, el2, er2, eb, Ideal.maximumf_def, Ideal.addf_def, Ideal.ofBits_def]
  rfl

/-- The last layer's result is the layer function, unclamped, of the second layer's result and its neighbour means. -/
theorem layer2 (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal))
    (x9 x10 : (⟨S64x64, .f32⟩ : BufTy).Contents (Elt Ideal)) (x11 : (⟨S64, .f32⟩ : BufTy).Contents (Elt Ideal)) :
    val_main_v64 (F := Ideal) x0 x1 x2 x3 x4 x5 x6 x7 x8 x9 x10 x11
      = Cert.Sage.lin (val_main_v46 (F := Ideal) x0 x1 x2 x3 x4 x5 x6 x7 x8) (val_main_v58 (F := Ideal) x0 x1 x2 x3 x4 x5 x6 x7 x8) x9 x10 x11 := by
  funext i
  obtain ⟨p, q, rfl⟩ : ∃ (p : Fin 100000) (q : Fin 64), i = ix2 p q := ⟨i 0, i 1, eq_ix2 i⟩
  have el1 : ∀ k : Fin 64, lidx_main_v59 (ix2 p q) k = ix2 p k := fun k => funext fun a => Fin.ext (by
    match a with
    | ⟨0, _⟩ => rfl
    | ⟨1, _⟩ => rfl)
  have er1 : ∀ k : Fin 64, ridx_main_v59 (ix2 p q) k = ix2 k q := fun k => funext fun a => Fin.ext (by
    match a with
    | ⟨0, _⟩ => rfl
    | ⟨1, _⟩ => rfl)
  have el2 : ∀ k : Fin 64, lidx_main_v60 (ix2 p q) k = ix2 p k := fun k => funext fun a => Fin.ext (by
    match a with
    | ⟨0, _⟩ => rfl
    | ⟨1, _⟩ => rfl)
  have er2 : ∀ k : Fin 64, ridx_main_v60 (ix2 p q) k = ix2 k q := fun k => funext fun a => Fin.ext (by
    match a with
    | ⟨0, _⟩ => rfl
    | ⟨1, _⟩ => rfl)
  have eb : idx_main_v62 (idx_main_v63 (ix2 p q)) = ix1 q := funext fun a => Fin.ext (by
    match a with
    | ⟨0, _⟩ => rfl)
  rw [val_main_v64_apply, val_main_v61_apply, val_main_v59_apply, val_main_v60_apply, val_main_v63_apply,
    val_main_v62_apply, Cert.Sage.lin_ix2]
  simp only [el1, er1, el2, er2, eb, Ideal.addf_def]
  rfl

end Cert.ReferenceIdeal.Layers

end
-- ==== Proof.KValue.lean ====
/-
  What the kernel program computes, as the reference's own function of the arguments, on the extended reals.

  Going through the program boundary by boundary: the first region's output array is the clamped layer function of
  the input features, their neighbour means, the first weights and bias — which is the reference's first layer; the
  second stretch of host operations turns that into the same neighbour means the reference computes from its first
  layer; the second region's output is then the reference's second layer; and in the same way the third region's
  output, the program's result, is the reference's last layer. Every step uses the arguments as launched: no host
  operation and no region writes an argument, and each region's inputs are unchanged by it.
-/
import proofs.«135646_j24326694764904_1_alg».proof.Proof.KernelIdealFrame
import proofs.«135646_j24326694764904_1_alg».proof.Proof.KHost
import proofs.«135646_j24326694764904_1_alg».proof.Proof.Region0
import proofs.«135646_j24326694764904_1_alg».proof.Proof.Region1
import proofs.«135646_j24326694764904_1_alg».proof.Proof.Region2
import proofs.«135646_j24326694764904_1_alg».proof.Proof.RefLayers

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After the first region its output array holds the reference's first layer. -/
theorem out0 : W2 m ρ c (Proc.devRef .tc main_v22)
    = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ?_
  refine (Cert.KernelIdeal.Region0.value (V1 m ρ) c (m ((c : Thread nD τ).loc main_arg5)) (Cert.KernelIdeal.Host.bias0 m ρ c)).trans ?_
  rw [Cert.ReferenceIdeal.Layers.layer0]
  have e0 : V1 m ρ c main_arg0 = (m ((c : Thread nD τ).loc main_arg0)) := Cert.KernelIdeal.Host.W1_arg0 m ρ c
  have e1 : V1 m ρ c main_v20 = Cert.ReferenceIdeal.Read.val_main_v20 (F := Ideal) (m ((c : Thread nD τ).loc main_arg0)) (m ((c : Thread nD τ).loc main_arg1)) (m ((c : Thread nD τ).loc main_arg2)) := Cert.KernelIdeal.Host.means0 m ρ c
  have e3 : V1 m ρ c main_arg3 = (m ((c : Thread nD τ).loc main_arg3)) := Cert.KernelIdeal.Host.W1_arg3 m ρ c
  have e4 : V1 m ρ c main_arg4 = (m ((c : Thread nD τ).loc main_arg4)) := Cert.KernelIdeal.Host.W1_arg4 m ρ c
  rw [e0, e1, e3, e4]

/-- After the second region its output array holds the reference's second layer. -/
theorem out1 : W4 m ρ c (Proc.devRef .tc main_v36)
    = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  refine (Cert.KernelIdeal.Region1.value (V3 m ρ) c (m ((c : Thread nD τ).loc main_arg8)) (Cert.KernelIdeal.Host.bias1 m ρ c)).trans ?_
  rw [Cert.ReferenceIdeal.Layers.layer1]
  have e0 : V3 m ρ c main_v22 = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (Cert.KernelIdeal.Host.W3_out0 m ρ c).trans (out0 m ρ c)
  have e1 : V3 m ρ c main_v34 = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    Cert.KernelIdeal.Host.means1 m ρ c _ _ _ _ _ _ (out0 m ρ c) (Cert.KernelIdeal.Host.W2_arg1 m ρ c) (Cert.KernelIdeal.Host.W2_arg2 m ρ c) (Cert.KernelIdeal.Host.W2_deg m ρ c)
  have e3 : V3 m ρ c main_arg6 = (m ((c : Thread nD τ).loc main_arg6)) := Cert.KernelIdeal.Host.W3_arg6 m ρ c
  have e4 : V3 m ρ c main_arg7 = (m ((c : Thread nD τ).loc main_arg7)) := Cert.KernelIdeal.Host.W3_arg7 m ρ c
  rw [e0, e1, e3, e4]

/-- After the third region its output array, the program's result, holds the reference's last layer. -/
theorem result : W6 m ρ c (Proc.devRef .tc main_v50)
    = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ?_
  refine (Cert.KernelIdeal.Region2.value (V5 m ρ) c (m ((c : Thread nD τ).loc main_arg11)) (Cert.KernelIdeal.Host.bias2 m ρ c)).trans ?_
  rw [Cert.ReferenceIdeal.Layers.layer2]
  have e0 : V5 m ρ c main_v36 = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (Cert.KernelIdeal.Host.W5_out1 m ρ c).trans (out1 m ρ c)
  have e1 : V5 m ρ c main_v48 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    Cert.KernelIdeal.Host.means2 m ρ c _ _ _ _ _ _ _ _ _ (out1 m ρ c) (Cert.KernelIdeal.Host.W4_arg1 m ρ c) (Cert.KernelIdeal.Host.W4_arg2 m ρ c) (Cert.KernelIdeal.Host.W4_deg m ρ c)
  have e3 : V5 m ρ c main_arg9 = (m ((c : Thread nD τ).loc main_arg9)) := Cert.KernelIdeal.Host.W5_arg9 m ρ c
  have e4 : V5 m ρ c main_arg10 = (m ((c : Thread nD τ).loc main_arg10)) := Cert.KernelIdeal.Host.W5_arg10 m ρ c
  rw [e0, e1, e3, e4]

end Cert.KernelIdeal.Net

end
-- ==== Proof.lean ====
/-
  Three layers of mean-aggregating graph convolution: a Pallas kernel per layer against plain jnp.

  Both programs compute, layer by layer, out[p, q] = (Σ_a h[p, a] · Ws[a, q] + Σ_a hn[p, a] · Wn[a, q]) + b[q], where hn
  is the degree-normalised sum of h over a node's in-neighbours, clamped at zero after the first two layers. The
  kernel program computes hn on the host exactly as the reference does (gather along the edge sources, scatter-add
  along the edge targets, times the reciprocal of the clamped in-degree) and the dense part in a region of 20 row
  blocks of 5000 nodes; the reference computes the dense part as two whole-array matrix products. On the extended
  reals the kernel's changes of float format are the identity and a matrix product into a zero accumulator is the
  plain sum over the contracted axis, so the two programs are the same function of the arguments, with the same
  grouping of every sum: no algebraic law is needed and the precondition is never opened.

  The three frames are the generated ones (the reference's is its generated run with the result dropped); nothing was
  rewritten when the kernel was idealized, so that conjunct is trivial; the value conjunct puts the kernel program's
  run, with its result array named and read as the reference's last stage of the arguments, beside the reference's
  generated run.
-/
import proofs.«135646_j24326694764904_1_alg».proof.Defs
import proofs.«135646_j24326694764904_1_alg».proof.Proof.Gen.Kernel
import proofs.«135646_j24326694764904_1_alg».proof.Proof.KernelFrame
import proofs.«135646_j24326694764904_1_alg».proof.Proof.Gen.KernelIdeal
import proofs.«135646_j24326694764904_1_alg».proof.Proof.KernelIdealFrame
import proofs.«135646_j24326694764904_1_alg».proof.Proof.KernelIdealRun
import proofs.«135646_j24326694764904_1_alg».proof.Proof.KValue
import proofs.«135646_j24326694764904_1_alg».proof.Proof.Gen.ReferenceIdeal
import proofs.«135646_j24326694764904_1_alg».proof.Proof.Gen.ReferenceIdeal.Run
import proofs.«135646_j24326694764904_1_alg».proof.Proof.Gen.ReferenceIdeal.Read
import proofs.«135646_j24326694764904_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the reference's last stage of
    the kernel side's arguments. -/
theorem algebraic : Cert.algebraic_KernelIdeal_ReferenceIdeal := by
  intro m ρ m' ρ' _ hagree
  refine ⟨fun c => Cert.ReferenceIdeal.Read.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Net.result m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v64_eq, h0, h1, h2, h3, h4, h5, h6, h7, h8, h9, h10, h11]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, trivial, Claims.algebraic⟩

end Cert.Proof

end
